-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .bf16⟩
  | .hbm, ⟨8, _⟩ => ⟨S4096x1024, .bf16⟩
  | .hbm, ⟨9, _⟩ => ⟨S4x1024x1024, .f32⟩
  | .hbm, ⟨10, _⟩ => ⟨S4x1024x1024, .bf16⟩
  | .hbm, ⟨11, _⟩ => ⟨S4x1024x1024, .f32⟩
  | .hbm, ⟨12, _⟩ => ⟨S4x1024x1024, .bf16⟩
  | .hbm, ⟨13, _⟩ => ⟨S4096x1024, .f32⟩
  | .hbm, ⟨14, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S4x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S4x1024x1024_S4x1024x1024_0_2_1 : S4x1024x1024.Transposes [0, 2, 1] S4x1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S4096x4x1024 : Shape := ⟨3, ![4096, 4, 1024]⟩
abbrev S1x4x1024 : Shape := ⟨3, ![1, 4, 1024]⟩
abbrev S4096x1x1024 : Shape := ⟨3, ![4096, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x4x1024, .f32⟩
  | .hbm, ⟨8, _⟩ => ⟨S4096x4x1024, .f32⟩
  | .hbm, ⟨9, _⟩ => ⟨S4096x4x1024, .f32⟩
  | .hbm, ⟨10, _⟩ => ⟨S1x4x1024, .f32⟩
  | .hbm, ⟨11, _⟩ => ⟨S4096x4x1024, .f32⟩
  | .hbm, ⟨12, _⟩ => ⟨S4096x4x1024, .f32⟩
  | .hbm, ⟨13, _⟩ => ⟨S1x4x1024, .f32⟩
  | .hbm, ⟨14, _⟩ => ⟨S4096x4x1024, .f32⟩
  | .hbm, ⟨15, _⟩ => ⟨S4096x4x1024, .f32⟩
  | .hbm, ⟨16, _⟩ => ⟨S4096x1x1024, .f32⟩
  | .hbm, ⟨17, _⟩ => ⟨S4096x1024, .f32⟩
  | .hbm, ⟨18, _⟩ => ⟨S4096x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  slices_S4096x4x1024_S4096x1x1024_0_1_0 : S4096x4x1024.Slices ![0, 1, 0] S4096x1x1024
  bcast_S_S4096x1024 : S_.BroadcastsInDim S4096x1024 (![] : Fin 0 → Fin S4096x1024.rank)
  slices_S4096x4x1024_S4096x1x1024_0_2_0 : S4096x4x1024.Slices ![0, 2, 0] S4096x1x1024
  slices_S4096x4x1024_S4096x1x1024_0_3_0 : S4096x4x1024.Slices ![0, 3, 0] S4096x1x1024
  dot_S4096x1024_S4x1024x1024_S4096x4x1024_1_2_0_01_n_n_wf : DotDims.WF S4096x1024 S4x1024x1024 S4096x4x1024 [1] [2] [0] [0, 1] [] []

variable [Facts₀]

def dot_S4096x1024_S4x1024x1024_S4096x4x1024_1_2_0_01_n_n : DotDims S4096x1024 S4x1024x1024 S4096x4x1024 where
  lhsContracting := [1]
  rhsContracting := [2]
  lhsNonContracting := [0]
  rhsNonContracting := [0, 1]
  lhsBatch := []
  rhsBatch := []
  wf := dot_S4096x1024_S4x1024x1024_S4096x4x1024_1_2_0_01_n_n_wf

class Facts : Prop extends Facts₀ where

variable [Facts]
-- ==== Proof.LstmSpec.lean ====
/-
  One step of an LSTM cell over a batch, as a function of the seven argument arrays, entry by entry, on the
  extended reals.

  For a batch row b and a hidden unit j, gate g (0: candidate, 1: input, 2: forget, 3: output) has the pre-activation
      z g b j = ((sum over k of x(b,k) * Wx(g,j,k)) + (sum over k of h(b,k) * Wh(g,j,k)) + bx(g,j)) + bh(g,j),
  the new cell state is  c'(b,j) = tanh (z 0 b j) * sigma (z 1 b j) + c(b,j) * sigma (z 2 b j),
  and the new hidden state is  h'(b,j) = tanh (c'(b,j)) * sigma (z 3 b j),
  where sigma t = 1 / (1 + exp (-t)). The sums are grouped exactly as written: the two products are added first,
  then the two biases one after the other, so no law of the extended reals beyond reading each side is needed.
-/
import Idealize.ShloMosaic.Lib.ValueIdx
import Idealize.ShloMosaic.PureOps.Ideal

open scoped BigOperators

noncomputable section

namespace Cert.Lstm

open Idealize.ShloMosaic Idealize.ShloMosaic.ValueIdx

/-- A batch of rows: 4096 rows of 1024 entries. -/
abbrev Rows := (⟨2, ![4096, 1024]⟩ : Shape).Idx → EReal
/-- Four square weight matrices, one per gate: entry (g, j, k) weighs input k for unit j of gate g. -/
abbrev Weights := (⟨3, ![4, 1024, 1024]⟩ : Shape).Idx → EReal
/-- Four bias vectors, one per gate. -/
abbrev Biases := (⟨2, ![4, 1024]⟩ : Shape).Idx → EReal

/-- Gate g's pre-activation at batch row b and unit j. -/
def gatePre (x h : Rows) (wx wh : Weights) (bx bh : Biases) (g : Fin 4) (b : Fin 4096) (j : Fin 1024) : EReal :=
  ((∑ k : Fin 1024, x (ix2 b k) * wx (ix3 g j k)) + (∑ k : Fin 1024, h (ix2 b k) * wh (ix3 g j k)) + bx (ix2 g j))
    + bh (ix2 g j)

/-- The new cell state at (b, j). -/
def cellAt (x h c : Rows) (wx wh : Weights) (bx bh : Biases) (b : Fin 4096) (j : Fin 1024) : EReal :=
  Ideal.tanh (gatePre x h wx wh bx bh 0 b j) * Ideal.logistic (gatePre x h wx wh bx bh 1 b j)
    + c (ix2 b j) * Ideal.logistic (gatePre x h wx wh bx bh 2 b j)

/-- The new hidden state at (b, j). -/
def hiddenAt (x h c : Rows) (wx wh : Weights) (bx bh : Biases) (b : Fin 4096) (j : Fin 1024) : EReal :=
  Ideal.tanh (cellAt x h c wx wh bx bh b j) * Ideal.logistic (gatePre x h wx wh bx bh 3 b j)

/-- The new cell state as an array. -/
def cellArr (x h c : Rows) (wx wh : Weights) (bx bh : Biases) : Rows :=
  fun i => cellAt x h c wx wh bx bh (i 0) (i 1)

/-- The new hidden state as an array. -/
def hiddenArr (x h c : Rows) (wx wh : Weights) (bx bh : Biases) : Rows :=
  fun i => hiddenAt x h c wx wh bx bh (i 0) (i 1)

theorem cellArr_apply (x h c : Rows) (wx wh : Weights) (bx bh : Biases) (b : Fin 4096) (j : Fin 1024) :
    cellArr x h c wx wh bx bh (ix2 b j) = cellAt x h c wx wh bx bh b j := rfl

theorem hiddenArr_apply (x h c : Rows) (wx wh : Weights) (bx bh : Biases) (b : Fin 4096) (j : Fin 1024) :
    hiddenArr x h c wx wh bx bh (ix2 b j) = hiddenAt x h c wx wh bx bh b j := rfl

end Cert.Lstm

end
-- ==== Proof.RefIsSpec.lean ====
/-
  The reference program's two results, read at an entry, are the LSTM step of LstmSpec.

  The reference contracts x with all four gates' weights at once into a [4096, 4, 1024] array (entry (b, g, j) sums
  x(b,k) * Wx(g,j,k) over k), does the same for h, adds the two, then the two biases spread over the batch, and cuts
  the four gates out again by slicing the middle axis at 0, 1, 2, 3 and dropping it. A sigmoid is spelt
  1 / (1 + exp (-t)) with the literal 1.0, which is the extended real one; that is Ideal.logistic t by definition.
-/
import proofs.«117906_j46540265620152_1_alg».proof.Proof.Gen.ReferenceIdeal.Read
import proofs.«117906_j46540265620152_1_alg».proof.Proof.LstmSpec
import Idealize.ShloMosaic.Lib.IdealHost

open scoped BigOperators

noncomputable section

namespace Cert.Lstm.Ref

open Cert.ReferenceIdeal Cert.ReferenceIdeal.Read Idealize.ShloMosaic Idealize.ShloMosaic.ValueIdx Cert.Lstm

variable (x0 x1 x2 : (⟨S4096x1024, .f32⟩ : BufTy).Contents (Elt Ideal))
  (x3 x4 : (⟨S4x1024x1024, .f32⟩ : BufTy).Contents (Elt Ideal))
  (x5 x6 : (⟨S4x1024, .f32⟩ : BufTy).Contents (Elt Ideal))

/-- Entry (b, g, j) of the summed contractions plus the two spread biases is gate g's pre-activation. -/
theorem pre_apply (b : Fin 4096) (g : Fin 4) (j : Fin 1024) :
    val_main_v8 (F := Ideal) x0 x1 x3 x4 x5 x6 (ix3 b g j) = gatePre x0 x1 x3 x4 x5 x6 g b j := by
  rw [val_main_v8_apply, val_main_v5_apply, val_main_v2_apply, val_main_v0_apply, val_main_v1_apply,
    val_main_v4_apply, val_main_v3_apply, val_main_v7_apply, val_main_v6_apply]
  have el0 : ∀ k : Fin 1024, lidx_main_v0 (ix3 b g j) k = ix2 b k := fun k => funext fun a => by
    match a with | ⟨0, _⟩ => rfl | ⟨1, _⟩ => rfl
  have er0 : ∀ k : Fin 1024, ridx_main_v0 (ix3 b g j) k = ix3 g j k := fun k => funext fun a => by
    match a with | ⟨0, _⟩ => rfl | ⟨1, _⟩ => rfl | ⟨2, _⟩ => rfl
  have el1 : ∀ k : Fin 1024, lidx_main_v1 (ix3 b g j) k = ix2 b k := fun k => funext fun a => by
    match a with | ⟨0, _⟩ => rfl | ⟨1, _⟩ => rfl
  have er1 : ∀ k : Fin 1024, ridx_main_v1 (ix3 b g j) k = ix3 g j k := fun k => funext fun a => by
    match a with | ⟨0, _⟩ => rfl | ⟨1, _⟩ => rfl | ⟨2, _⟩ => rfl
  have eb5 : idx_main_v3 (idx_main_v4 (ix3 b g j)) = ix2 g j := funext fun a => by
    match a with | ⟨0, _⟩ => rfl | ⟨1, _⟩ => rfl
  have eb6 : idx_main_v6 (idx_main_v7 (ix3 b g j)) = ix2 g j := funext fun a => by
    match a with | ⟨0, _⟩ => rfl | ⟨1, _⟩ => rfl
  simp only [el0, er0, el1, er1, eb5, eb6]
  rfl

/-- Slicing the middle axis at g and dropping it reads entry (b, g, j). -/
theorem gate0_apply (b : Fin 4096) (j : Fin 1024) :
    val_main_v10 (F := Ideal) x0 x1 x3 x4 x5 x6 (ix2 b j) = gatePre x0 x1 x3 x4 x5 x6 0 b j := by
  rw [val_main_v10_apply, val_main_v9_apply]
  have e : idx_main_v9 (idx_main_v10 (ix2 b j)) = ix3 b 0 j := by
    have hj := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]; exact pre_apply x0 x1 x3 x4 x5 x6 b 0 j

theorem gate1_apply (b : Fin 4096) (j : Fin 1024) :
    val_main_v13 (F := Ideal) x0 x1 x3 x4 x5 x6 (ix2 b j) = gatePre x0 x1 x3 x4 x5 x6 1 b j := by
  rw [val_main_v13_apply, val_main_v12_apply]
  have e : idx_main_v12 (idx_main_v13 (ix2 b j)) = ix3 b 1 j := by
    have hj := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]; exact pre_apply x0 x1 x3 x4 x5 x6 b 1 j

theorem gate2_apply (b : Fin 4096) (j : Fin 1024) :
    val_main_v21 (F := Ideal) x0 x1 x3 x4 x5 x6 (ix2 b j) = gatePre x0 x1 x3 x4 x5 x6 2 b j := by
  rw [val_main_v21_apply, val_main_v20_apply]
  have e : idx_main_v20 (idx_main_v21 (ix2 b j)) = ix3 b 2 j := by
    have hj := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]; exact pre_apply x0 x1 x3 x4 x5 x6 b 2 j

theorem gate3_apply (b : Fin 4096) (j : Fin 1024) :
    val_main_v29 (F := Ideal) x0 x1 x3 x4 x5 x6 (ix2 b j) = gatePre x0 x1 x3 x4 x5 x6 3 b j := by
  rw [val_main_v29_apply, val_main_v28_apply]
  have e : idx_main_v28 (idx_main_v29 (ix2 b j)) = ix3 b 3 j := by
    have hj := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]; exact pre_apply x0 x1 x3 x4 x5 x6 b 3 j

/-- The spelt-out sigmoid of gate 1 is the logistic function of its pre-activation. -/
theorem sig1_apply (b : Fin 4096) (j : Fin 1024) :
    val_main_v19 (F := Ideal) x0 x1 x3 x4 x5 x6 (ix2 b j) = Ideal.logistic (gatePre x0 x1 x3 x4 x5 x6 1 b j) := by
  rw [val_main_v19_apply, val_main_v18_apply, val_main_cst_0_apply, val_main_v17_apply, val_main_v16_apply,
    val_main_cst_apply, val_main_v15_apply, val_main_v14_apply, gate1_apply]
  simp only [Ideal.hostDivf_def, Ideal.addf_def, Ideal.hostUnary_exp_def, Ideal.hostNegf_def, Ideal.negf_def,
    Ideal.ofBits_def, Ideal.ofBits_one_f32]
  rfl

theorem sig2_apply (b : Fin 4096) (j : Fin 1024) :
    val_main_v27 (F := Ideal) x0 x1 x3 x4 x5 x6 (ix2 b j) = Ideal.logistic (gatePre x0 x1 x3 x4 x5 x6 2 b j) := by
  rw [val_main_v27_apply, val_main_v26_apply, val_main_cst_2_apply, val_main_v25_apply, val_main_v24_apply,
    val_main_cst_1_apply, val_main_v23_apply, val_main_v22_apply, gate2_apply]
  simp only [Ideal.hostDivf_def, Ideal.addf_def, Ideal.hostUnary_exp_def, Ideal.hostNegf_def, Ideal.negf_def,
    Ideal.ofBits_def, Ideal.ofBits_one_f32]
  rfl

theorem sig3_apply (b : Fin 4096) (j : Fin 1024) :
    val_main_v35 (F := Ideal) x0 x1 x3 x4 x5 x6 (ix2 b j) = Ideal.logistic (gatePre x0 x1 x3 x4 x5 x6 3 b j) := by
  rw [val_main_v35_apply, val_main_v34_apply, val_main_cst_4_apply, val_main_v33_apply, val_main_v32_apply,
    val_main_cst_3_apply, val_main_v31_apply, val_main_v30_apply, gate3_apply]
  simp only [Ideal.hostDivf_def, Ideal.addf_def, Ideal.hostUnary_exp_def, Ideal.hostNegf_def, Ideal.negf_def,
    Ideal.ofBits_def, Ideal.ofBits_one_f32]
  rfl

/-- The reference's second result is the new cell state. -/
theorem cell_eq : val_main_v38 (F := Ideal) x0 x1 x2 x3 x4 x5 x6 = cellArr x0 x1 x2 x3 x4 x5 x6 := by
  funext i
  obtain ⟨b, j, rfl⟩ : ∃ (b : Fin 4096) (j : Fin 1024), i = ix2 b j := ⟨i 0, i 1, eq_ix2 i⟩
  rw [val_main_v38_apply, val_main_v36_apply, val_main_v37_apply, val_main_v11_apply, gate0_apply, sig1_apply,
    sig2_apply]
  rfl

/-- The reference's first result is the new hidden state. -/
theorem hidden_eq : val_main_v40 (F := Ideal) x0 x1 x2 x3 x4 x5 x6 = hiddenArr x0 x1 x2 x3 x4 x5 x6 := by
  funext i
  obtain ⟨b, j, rfl⟩ : ∃ (b : Fin 4096) (j : Fin 1024), i = ix2 b j := ⟨i 0, i 1, eq_ix2 i⟩
  rw [val_main_v40_apply, val_main_v39_apply, sig3_apply, congrFun (cell_eq x0 x1 x2 x3 x4 x5 x6) (ix2 b j)]
  rfl

end Cert.Lstm.Ref

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.LibLeadingUnit.lean ====
/-
  A block of a rank-3 array taken one slab at a time has shape [1, a, b]; a kernel body drops that leading unit
  axis before it computes on the [a, b] matrix and puts it back before it stores. Both shape casts move no
  element: the row-major position of (0, p, q) in [1, a, b] is p * b + q, the position of (p, q) in [a, b].
  Stated here for any sizes and any element type, read at an index given by its coordinates.
-/
import Idealize.ShloMosaic.Lib.Pipeline.Value
import Idealize.ShloMosaic.Lib.ValueIdx

noncomputable section

namespace Cert.LeadingUnit

open Idealize.ShloMosaic Idealize.ShloMosaic.ValueIdx

variable {α : Type} {a b : Nat}

/-- Row-major position of (0, p, q) in [1, a, b] and of (p, q) in [a, b] are the same number. -/
theorem rowMajor_lead (p : Fin a) (q : Fin b) :
    ((⟨3, ![1, a, b]⟩ : Shape).rowMajor (ix3 (0 : Fin 1) p q)).val = ((⟨2, ![a, b]⟩ : Shape).rowMajor (ix2 p q)).val := by
  rw [Shape.rowMajor_val_three, Shape.rowMajor_val_two]
  show (((0 : Fin 1) : ℕ) * (![1, a, b] : Fin 3 → ℕ) 1 + (p : ℕ)) * (![1, a, b] : Fin 3 → ℕ) 2 + (q : ℕ)
    = (p : ℕ) * (![a, b] : Fin 2 → ℕ) 1 + (q : ℕ)
  simp

/-- Dropping the leading unit axis: the [a, b] matrix at (p, q) is the [1, a, b] slab at (0, p, q). -/
theorem dropLead_apply (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) :=
  shapeCast_apply v h (ix2 p q) (ix3 (0 : Fin 1) p q) (rowMajor_lead p q)

/-- Putting the leading unit axis back: the [1, a, b] slab at (0, p, q) is the [a, b] matrix at (p, q). -/
theorem addLead_apply (v : (⟨2, ![a, b]⟩ : Shape).Idx → α) (h : (⟨2, ![a, b]⟩ : Shape).ShapeCasts ⟨3, ![1, a, b]⟩)
    (p : Fin a) (q : Fin b) : shapeCast ⟨3, ![1, a, b]⟩ v h (ix3 (0 : Fin 1) p q) = v (ix2 p q) :=
  shapeCast_apply v h (ix3 (0 : Fin 1) p q) (ix2 p q) (rowMajor_lead p q).symm

end Cert.LeadingUnit

end
-- ==== Proof.KernelGates.lean ====
/-
  What the kernel body computes for one block of 256 batch rows, read at an entry (p, q) of the block.

  The body takes the block of x and of h (256 rows), one gate's [1024, 1024] slab of each transposed weight array
  (a slab has a leading axis of extent one, dropped before the product), and one row of each bias array. A product
  into the zero accumulator at (p, q) is the sum over k of A(p,k) * W(0,k,q); a bias row, recast as a vector and
  back and spread down the 256 rows, is at (p, q) the row's entry q. So a gate's pre-activation at (p, q) is
      ((sum of X(p,k) * Wx(0,k,q)) + (sum of H(p,k) * Wh(0,k,q)) + bx(0,q)) + bh(0,q).
-/
import proofs.«117906_j46540265620152_1_alg».proof.Proof.Gen.KernelIdeal.Skeleton
import proofs.«117906_j46540265620152_1_alg».proof.Proof.LibPlainDot
import proofs.«117906_j46540265620152_1_alg».proof.Proof.LibRowSpread
import proofs.«117906_j46540265620152_1_alg».proof.Proof.LibLeadingUnit
import Idealize.ShloMosaic.Lib.Pipeline.Value

open scoped BigOperators

noncomputable section

namespace Cert.Lstm.Kernel

open Cert.KernelIdeal Cert.KernelIdeal.Gen Idealize.ShloMosaic Idealize.ShloMosaic.ValueIdx

/-- The body's products contract the left operand's columns with the right operand's rows. -/
theorem dot_plain : PlainDot.IsPlain (R := 256) (K := 1024) (N := 1024)
    dot_S256x1024_S1024x1024_S256x1024_1_0_0_1_n_n := ⟨rfl, rfl, rfl, rfl, rfl, rfl⟩

/-- One product of the body at (p, q): the rows block against a weight slab with its unit axis dropped. -/
theorem slab_dot (A : FVec Ideal S256x1024 .bf16) (W : Vec Ideal S1x1024x1024 .bf16) (p : Fin 256) (q : Fin 1024) :
    FloatOps.matmul dot_S256x1024_S1024x1024_S256x1024_1_0_0_1_n_n none A
        (shapeCast S1024x1024 W shapeCasts_S1x1024x1024_S1024x1024 : FVec Ideal S1024x1024 .bf16)
        (constant S256x1024 .f32 0x00000000#32) (ix2 p q)
      = ∑ k : Fin 1024, A (ix2 p k) * W (ix3 (0 : Fin 1) k q) := by
  refine ((Ideal.matmul_constant_zero_apply _ none A _ (ix2 p q)).trans
    (PlainDot.sum_contr dot_plain A _ p q)).trans ?_
  refine Finset.sum_congr rfl fun k _ => ?_
  rw [Cert.LeadingUnit.dropLead_apply]

/-- A one-row array recast as a vector: entry q is the row's entry (0, q). -/
theorem row_as_vector {α : Type} (P : S1x1024.Idx → α) (q : Fin 1024) :
    shapeCast S1024 P shapeCasts_S1x1024_S1024 (ix1 q) = P (ix2 (0 : Fin 1) q) := by
  refine shapeCast_apply P _ _ _ ?_
  rw [Shape.rowMajor_val_one, Shape.rowMajor_val_two]
  show (0 : Nat) * 1024 + q.val = q.val
  omega

/-- A bias row as the body spreads it over the block: at (p, q) it is the row's entry (0, q). -/
theorem bias_spread {α : Type} (P : S1x1024.Idx → α) (p : Fin 256) (q : Fin 1024) :
    broadcastTo S256x1024 (shapeCast S1x1024 (shapeCast S1024 P shapeCasts_S1x1024_S1024) shapeCasts_S1024_S1x1024)
        broadcasts_S1x1024_S256x1024 (ix2 p q) = P (ix2 (0 : Fin 1) q) :=
  (Cert.Lib.RowSpread.spread_asRow_apply _ _ _ p q).trans (row_as_vector P q)

/-- A gate's pre-activation over a block, from the block's rows, one slab of each weight array and one row of
    each bias array. -/
def blockPre (X H : S256x1024.Idx → EReal) (Wx Wh : S1x1024x1024.Idx → EReal) (Bx Bh : S1x1024.Idx → EReal)
    (p : Fin 256) (q : Fin 1024) : EReal :=
  ((∑ k : Fin 1024, X (ix2 p k) * Wx (ix3 (0 : Fin 1) k q)) + (∑ k : Fin 1024, H (ix2 p k) * Wh (ix3 (0 : Fin 1) k q))
    + Bx (ix2 (0 : Fin 1) q)) + Bh (ix2 (0 : Fin 1) q)

/-- The two products of a gate, added. -/
def blockDots (X H : S256x1024.Idx → EReal) (Wx Wh : S1x1024x1024.Idx → EReal) (p : Fin 256) (q : Fin 1024) : EReal :=
  (∑ k : Fin 1024, X (ix2 p k) * Wx (ix3 (0 : Fin 1) k q)) + (∑ k : Fin 1024, H (ix2 p k) * Wh (ix3 (0 : Fin 1) k q))

theorem blockPre_eq (X H : S256x1024.Idx → EReal) (Wx Wh : S1x1024x1024.Idx → EReal) (Bx Bh : S1x1024.Idx → EReal)
    (p : Fin 256) (q : Fin 1024) :
    blockPre X H Wx Wh Bx Bh p q = (blockDots X H Wx Wh p q + Bx (ix2 (0 : Fin 1) q)) + Bh (ix2 (0 : Fin 1) q) := rfl

/-- Gate 0's pre-activation as the body computes it (products, then the two biases). -/
theorem pay5_apply (P0 P1 : Vec Ideal S256x1024 .bf16) (P2 P3 : Vec Ideal S1x1024x1024 .bf16)
    (P4 P5 : Vec Ideal S1x1024 .f32) (p : Fin 256) (q : Fin 1024) :
    k0_pay5 P0 P1 P2 P3 P4 P5 (ix2 p q) = blockPre P0 P1 P2 P3 P4 P5 p q := by
  unfold k0_pay5 k0_pay3 k0_pay4
  show FloatOps.addf (FloatOps.addf (FloatOps.addf (FloatOps.matmul _ none _ _ _ (ix2 p q))
    (FloatOps.matmul _ none _ _ _ (ix2 p q))) (broadcastTo S256x1024 _ _ (ix2 p q))) (broadcastTo S256x1024 _ _ (ix2 p q)) = _
  rw [slab_dot, slab_dot, bias_spread, bias_spread, shapeCast_self, shapeCast_self]
  rfl

/-- Gate 1's two products, added. -/
theorem pay6_apply (P0 P1 : Vec Ideal S256x1024 .bf16) (P6 P7 : Vec Ideal S1x1024x1024 .bf16) (p : Fin 256) (q : Fin 1024) :
    k0_pay6 P0 P1 P6 P7 (ix2 p q) = blockDots P0 P1 P6 P7 p q := by
  unfold k0_pay6 k0_pay3 k0_pay4
  show FloatOps.addf (FloatOps.matmul _ none _ _ _ (ix2 p q)) (FloatOps.matmul _ none _ _ _ (ix2 p q)) = _
  rw [slab_dot, slab_dot, shapeCast_self, shapeCast_self]
  rfl

/-- Gate 2's pre-activation. -/
theorem pay9_apply (A B : FVec Ideal S256x1024 .bf16) (P11 P12 : Vec Ideal S1x1024x1024 .bf16)
    (P13 P14 : Vec Ideal S1x1024 .f32) (p : Fin 256) (q : Fin 1024) :
    k0_pay9 A B P11 P12 P13 P14 (ix2 p q) = blockPre A B P11 P12 P13 P14 p q := by
  unfold k0_pay9
  show FloatOps.addf (FloatOps.addf (FloatOps.addf (FloatOps.matmul _ none _ _ _ (ix2 p q))
    (FloatOps.matmul _ none _ _ _ (ix2 p q))) (broadcastTo S256x1024 _ _ (ix2 p q))) (broadcastTo S256x1024 _ _ (ix2 p q)) = _
  rw [slab_dot, slab_dot, bias_spread, bias_spread]
  rfl

/-- Gate 3's two products, added. -/
theorem pay10_apply (A B : FVec Ideal S256x1024 .bf16) (P15 P16 : Vec Ideal S1x1024x1024 .bf16) (p : Fin 256) (q : Fin 1024) :
    k0_pay10 A B P15 P16 (ix2 p q) = blockDots A B P15 P16 p q := by
  unfold k0_pay10
  show FloatOps.addf (FloatOps.matmul _ none _ _ _ (ix2 p q)) (FloatOps.matmul _ none _ _ _ (ix2 p q)) = _
  rw [slab_dot, slab_dot]
  rfl

end Cert.Lstm.Kernel

end
-- ==== Proof.KernelBlock.lean ====
/-
  What the kernel body leaves in its two output blocks, read at an entry (p, q), as one formula of its seven input
  blocks: 256 rows of x, h and c, the two whole transposed weight arrays and the two whole bias arrays.

  The body reads gate g's weights through the slab at offset g of the first axis and gate g's biases through row g;
  with those reads opened, gate g's pre-activation at (p, q) is
      ((sum of X(p,k) * Wx(g,k,q)) + (sum of H(p,k) * Wh(g,k,q)) + bx(g,q)) + bh(g,q),
  the second output block holds  tanh (z 0) * sigma (z 1) + C(p,q) * sigma (z 2)  and the first
  tanh (that) * sigma (z 3).
-/
import proofs.«117906_j46540265620152_1_alg».proof.Proof.Gen.KernelIdeal.Value
import proofs.«117906_j46540265620152_1_alg».proof.Proof.KernelGates

open scoped BigOperators

noncomputable section

namespace Cert.Lstm.Kernel

open Cert.KernelIdeal Cert.KernelIdeal.Gen Cert.KernelIdeal.Value Idealize.ShloMosaic Idealize.ShloMosaic.ValueIdx

theorem zero_offsets : (![0, 0] : Fin 2 → Nat) = fun _ => 0 := funext fun a => by fin_cases a <;> rfl

/-! ## The body's reads of its blocks

A read through a rectangle reads the block at the rectangle's image of the index: the whole 256-row blocks at the
index itself, gate g's weights at slab g, gate g's biases at row g. -/

theorem whole_rows (p : Fin 256) (q : Fin 1024) : r0_0.idx (ix2 p q) = ix2 p q := by
  refine funext fun a => Fin.ext ?_
  match a with
  | ⟨0, _⟩ => show 0 + 1 * p.val = p.val; omega
  | ⟨1, _⟩ => show 0 + 1 * q.val = q.val; omega

theorem slab0 (k q : Fin 1024) : r0_1.idx (ix3 (0 : Fin 1) k q) = ix3 (0 : Fin 4) k q := by
  refine funext fun a => Fin.ext ?_
  match a with
  | ⟨0, _⟩ => rfl
  | ⟨1, _⟩ => show 0 + 1 * k.val = k.val; omega
  | ⟨2, _⟩ => show 0 + 1 * q.val = q.val; omega

theorem slab1 (k q : Fin 1024) : r0_3.idx (ix3 (0 : Fin 1) k q) = ix3 (1 : Fin 4) k q := by
  refine funext fun a => Fin.ext ?_
  match a with
  | ⟨0, _⟩ => rfl
  | ⟨1, _⟩ => show 0 + 1 * k.val = k.val; omega
  | ⟨2, _⟩ => show 0 + 1 * q.val = q.val; omega

theorem slab2 (k q : Fin 1024) : r0_5.idx (ix3 (0 : Fin 1) k q) = ix3 (2 : Fin 4) k q := by
  refine funext fun a => Fin.ext ?_
  match a with
  | ⟨0, _⟩ => rfl
  | ⟨1, _⟩ => show 0 + 1 * k.val = k.val; omega
  | ⟨2, _⟩ => show 0 + 1 * q.val = q.val; omega

theorem slab3 (k q : Fin 1024) : r0_7.idx (ix3 (0 : Fin 1) k q) = ix3 (3 : Fin 4) k q := by
  refine funext fun a => Fin.ext ?_
  match a with
  | ⟨0, _⟩ => rfl
  | ⟨1, _⟩ => show 0 + 1 * k.val = k.val; omega
  | ⟨2, _⟩ => show 0 + 1 * q.val = q.val; omega

theorem brow0 (q : Fin 1024) : r0_2.idx (ix2 (0 : Fin 1) q) = ix2 (0 : Fin 4) q := by
  refine funext fun a => Fin.ext ?_
  match a with
  | ⟨0, _⟩ => rfl
  | ⟨1, _⟩ => show 0 + 1 * q.val = q.val; omega

theorem brow1 (q : Fin 1024) : r0_4.idx (ix2 (0 : Fin 1) q) = ix2 (1 : Fin 4) q := by
  refine funext fun a => Fin.ext ?_
  match a with
  | ⟨0, _⟩ => rfl
  | ⟨1, _⟩ => show 0 + 1 * q.val = q.val; omega

theorem brow2 (q : Fin 1024) : r0_6.idx (ix2 (0 : Fin 1) q) = ix2 (2 : Fin 4) q := by
  refine funext fun a => Fin.ext ?_
  match a with
  | ⟨0, _⟩ => rfl
  | ⟨1, _⟩ => show 0 + 1 * q.val = q.val; omega

theorem brow3 (q : Fin 1024) : r0_8.idx (ix2 (0 : Fin 1) q) = ix2 (3 : Fin 4) q := by
  refine funext fun a => Fin.ext ?_
  match a with
  | ⟨0, _⟩ => rfl
  | ⟨1, _⟩ => show 0 + 1 * q.val = q.val; omega

/-! ## The block formulas -/

/-- Gate g's pre-activation at (p, q) of the block. -/
def gateBlk (X H : S256x1024.Idx → EReal) (Wx Wh : S4x1024x1024.Idx → EReal) (Bx Bh : S4x1024.Idx → EReal)
    (g : Fin 4) (p : Fin 256) (q : Fin 1024) : EReal :=
  ((∑ k : Fin 1024, X (ix2 p k) * Wx (ix3 g k q)) + (∑ k : Fin 1024, H (ix2 p k) * Wh (ix3 g k q)) + Bx (ix2 g q))
    + Bh (ix2 g q)

/-- The new cell state at (p, q) of the block. -/
def cellBlk (X H C : S256x1024.Idx → EReal) (Wx Wh : S4x1024x1024.Idx → EReal) (Bx Bh : S4x1024.Idx → EReal)
    (p : Fin 256) (q : Fin 1024) : EReal :=
  Ideal.tanh (gateBlk X H Wx Wh Bx Bh 0 p q) * Ideal.logistic (gateBlk X H Wx Wh Bx Bh 1 p q)
    + C (ix2 p q) * Ideal.logistic (gateBlk X H Wx Wh Bx Bh 2 p q)

/-- The new hidden state at (p, q) of the block. -/
def hiddenBlk (X H C : S256x1024.Idx → EReal) (Wx Wh : S4x1024x1024.Idx → EReal) (Bx Bh : S4x1024.Idx → EReal)
    (p : Fin 256) (q : Fin 1024) : EReal :=
  Ideal.tanh (cellBlk X H C Wx Wh Bx Bh p q) * Ideal.logistic (gateBlk X H Wx Wh Bx Bh 3 p q)

variable (x0 x1 : Vec Ideal S256x1024 .bf16) (x2 : Vec Ideal S256x1024 .f32)
  (x3 x4 : Vec Ideal S4x1024x1024 .bf16) (x5 x6 : Vec Ideal S4x1024 .f32)

/-- Gate 0 over the body's reads. -/
theorem gate0_blk (p : Fin 256) (q : Fin 1024) :
    blockPre (View.ld x0 r0_0) (View.ld x1 r0_0) (View.ld x3 r0_1) (View.ld x4 r0_1) (View.ld x5 r0_2) (View.ld x6 r0_2) p q
      = gateBlk x0 x1 x3 x4 x5 x6 0 p q := by
  unfold blockPre gateBlk
  simp only [View.ld, whole_rows, slab0, brow0]

/-- Gate 1: its two products, then its two bias rows. -/
theorem gate1_blk (p : Fin 256) (q : Fin 1024) :
    (blockDots (View.ld x0 r0_0) (View.ld x1 r0_0) (View.ld x3 r0_3) (View.ld x4 r0_3) p q
        + View.ld x5 r0_4 (ix2 (0 : Fin 1) q)) + View.ld x6 r0_4 (ix2 (0 : Fin 1) q)
      = gateBlk x0 x1 x3 x4 x5 x6 1 p q := by
  unfold blockDots gateBlk
  simp only [View.ld, whole_rows, slab1, brow1]

/-- Gate 2 over the body's reads. -/
theorem gate2_blk (p : Fin 256) (q : Fin 1024) :
    blockPre (View.ld x0 r0_0) (View.ld x1 r0_0) (View.ld x3 r0_5) (View.ld x4 r0_5) (View.ld x5 r0_6) (View.ld x6 r0_6) p q
      = gateBlk x0 x1 x3 x4 x5 x6 2 p q := by
  unfold blockPre gateBlk
  simp only [View.ld, whole_rows, slab2, brow2]

/-- Gate 3: its two products, then its two bias rows. -/
theorem gate3_blk (p : Fin 256) (q : Fin 1024) :
    (blockDots (View.ld x0 r0_0) (View.ld x1 r0_0) (View.ld x3 r0_7) (View.ld x4 r0_7) p q
        + View.ld x5 r0_8 (ix2 (0 : Fin 1) q)) + View.ld x6 r0_8 (ix2 (0 : Fin 1) q)
      = gateBlk x0 x1 x3 x4 x5 x6 3 p q := by
  unfold blockDots gateBlk
  simp only [View.ld, whole_rows, slab3, brow3]

/-! ## The two output blocks -/

theorem at_self8 (p : Fin 256) (q : Fin 1024) : ix8_0 (ix2 p q) = ix2 p q ∧ ix8_1 (ix2 p q) = ix2 p q
    ∧ ix8_4 (ix2 p q) = ix2 p q ∧ ix8_5 (ix2 p q) = ix2 p q :=
  ⟨funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl⟩

theorem at_row8 (p : Fin 256) (q : Fin 1024) : ix8_2 (ix2 p q) = ix2 (0 : Fin 1) q ∧ ix8_3 (ix2 p q) = ix2 (0 : Fin 1) q :=
  ⟨funext fun a => by match a with | ⟨0, _⟩ => rfl | ⟨1, _⟩ => rfl,
   funext fun a => by match a with | ⟨0, _⟩ => rfl | ⟨1, _⟩ => rfl⟩

/-- The second output block (the cell state) at (p, q). -/
theorem out8_apply (p : Fin 256) (q : Fin 1024) :
    out0_8 x0 x1 x2 x3 x4 x5 x6 (ix2 p q) = cellBlk x0 x1 x2 x3 x4 x5 x6 p q := by
  unfold out0_8
  rw [canon8_eq]
  unfold E8
  obtain ⟨e0, e1, e4, e5⟩ := at_self8 p q
  obtain ⟨e2, e3⟩ := at_row8 p q
  rw [e0, e1, e2, e3, e4, e5, pay5_apply, pay6_apply, pay9_apply, shapeCast_self, shapeCast_self]
  simp only [Ideal.addf_def, Ideal.mulf_def, Ideal.tanh_def, Ideal.logistic_def]
  rw [gate0_blk, gate1_blk, gate2_blk, View.ld_unit_zero (S := S256x1024) zero_offsets]
  rfl

theorem at_self7 (p : Fin 256) (q : Fin 1024) : ix7_0 (ix2 p q) = ix2 p q ∧ ix7_1 (ix2 p q) = ix2 p q
    ∧ ix7_4 (ix2 p q) = ix2 p q ∧ ix7_5 (ix2 p q) = ix2 p q ∧ ix7_6 (ix2 p q) = ix2 p q :=
  ⟨funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl⟩

theorem at_row7 (p : Fin 256) (q : Fin 1024) : ix7_2 (ix2 p q) = ix2 (0 : Fin 1) q ∧ ix7_3 (ix2 p q) = ix2 (0 : Fin 1) q
    ∧ ix7_7 (ix2 p q) = ix2 (0 : Fin 1) q ∧ ix7_8 (ix2 p q) = ix2 (0 : Fin 1) q :=
  ⟨funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl,
   funext fun a => by match a with | ⟨0, _⟩ => rfl | ⟨1, _⟩ => rfl⟩

/-- The first output block (the hidden state) at (p, q). -/
theorem out7_apply (p : Fin 256) (q : Fin 1024) :
    out0_7 x0 x1 x2 x3 x4 x5 x6 (ix2 p q) = hiddenBlk x0 x1 x2 x3 x4 x5 x6 p q := by
  unfold out0_7
  rw [canon7_eq]
  unfold E7
  obtain ⟨e0, e1, e4, e5, e6⟩ := at_self7 p q
  obtain ⟨e2, e3, e7, e8⟩ := at_row7 p q
  rw [e0, e1, e2, e3, e4, e5, e6, e7, e8, pay5_apply, pay6_apply, pay9_apply, pay10_apply, shapeCast_self, shapeCast_self]
  simp only [Ideal.addf_def, Ideal.mulf_def, Ideal.tanh_def, Ideal.logistic_def]
  rw [gate0_blk, gate1_blk, gate2_blk, gate3_blk, View.ld_unit_zero (S := S256x1024) zero_offsets]
  rfl

end Cert.Lstm.Kernel

end
-- ==== Proof.KernelArray.lean ====
/-
  From blocks to arrays: the kernel's two result arrays after the run are the LSTM step of LstmSpec, entry by entry.

  Grid point t works on batch rows 256 t .. 256 t + 255: its blocks of x, h and c are those rows of the arguments
  (x and h through a change of float format, which is the identity on the extended reals), its weight blocks are the
  whole arrays with their last two axes swapped on the way in, so that entry (g, k, q) of the block is entry
  (g, q, k) of the argument, and its bias blocks are the whole bias arrays. With these readings the block formulas
  of KernelBlock are the array formulas of LstmSpec at row 256 t + p; the sixteen row blocks tile the 4096 rows, so
  each result array is the specification's array.
-/
import proofs.«117906_j46540265620152_1_alg».proof.Proof.Gen.KernelIdeal.Value
import proofs.«117906_j46540265620152_1_alg».proof.Proof.KernelBlock
import proofs.«117906_j46540265620152_1_alg».proof.Proof.LstmSpec
import Idealize.ShloMosaic.Lib.StableHlo.Run
import Idealize.ShloMosaic.Lib.Pipeline.Value

open scoped BigOperators

noncomputable section

namespace Cert.Lstm.Kernel

open Cert.KernelIdeal Cert.KernelIdeal.Gen Cert.KernelIdeal.Value Idealize.ShloMosaic Idealize.ShloMosaic.TcCoe
open Idealize.SL.Sem Idealize.ShloMosaic.ValueIdx Cert.Lstm
open Idealize.ShloMosaic.Pipeline (Dat)

/-! ## Block formulas are array formulas -/

/-- If the blocks are rows b.. of the batch arrays (the block's row p being row b), the weight blocks the weight
    arrays with their last two axes swapped, and the bias blocks the bias arrays, then gate g's pre-activation
    over the block at (p, q) is the specification's at (b, q). -/
theorem gateBlk_eq (X H : S256x1024.Idx → EReal) (Wx Wh : S4x1024x1024.Idx → EReal) (Bx Bh : S4x1024.Idx → EReal)
    (x h : Rows) (wx wh : Weights) (bx bh : Biases) (b : Fin 4096) (p : Fin 256)
    (hX : ∀ k, X (ix2 p k) = x (ix2 b k)) (hH : ∀ k, H (ix2 p k) = h (ix2 b k))
    (hWx : ∀ g k q, Wx (ix3 g k q) = wx (ix3 g q k)) (hWh : ∀ g k q, Wh (ix3 g k q) = wh (ix3 g q k))
    (hBx : ∀ g q, Bx (ix2 g q) = bx (ix2 g q)) (hBh : ∀ g q, Bh (ix2 g q) = bh (ix2 g q)) (g : Fin 4) (q : Fin 1024) :
    gateBlk X H Wx Wh Bx Bh g p q = gatePre x h wx wh bx bh g b q := by
  unfold gateBlk gatePre
  simp only [hX, hH, hWx, hWh, hBx, hBh]

theorem cellBlk_eq (X H C : S256x1024.Idx → EReal) (Wx Wh : S4x1024x1024.Idx → EReal) (Bx Bh : S4x1024.Idx → EReal)
    (x h c : Rows) (wx wh : Weights) (bx bh : Biases) (b : Fin 4096) (p : Fin 256)
    (hX : ∀ k, X (ix2 p k) = x (ix2 b k)) (hH : ∀ k, H (ix2 p k) = h (ix2 b k)) (hC : ∀ q, C (ix2 p q) = c (ix2 b q))
    (hWx : ∀ g k q, Wx (ix3 g k q) = wx (ix3 g q k)) (hWh : ∀ g k q, Wh (ix3 g k q) = wh (ix3 g q k))
    (hBx : ∀ g q, Bx (ix2 g q) = bx (ix2 g q)) (hBh : ∀ g q, Bh (ix2 g q) = bh (ix2 g q)) (q : Fin 1024) :
    cellBlk X H C Wx Wh Bx Bh p q = cellAt x h c wx wh bx bh b q := by
  unfold cellBlk cellAt
  rw [gateBlk_eq X H Wx Wh Bx Bh x h wx wh bx bh b p hX hH hWx hWh hBx hBh 0 q,
    gateBlk_eq X H Wx Wh Bx Bh x h wx wh bx bh b p hX hH hWx hWh hBx hBh 1 q,
    gateBlk_eq X H Wx Wh Bx Bh x h wx wh bx bh b p hX hH hWx hWh hBx hBh 2 q, hC q]

theorem hiddenBlk_eq (X H C : S256x1024.Idx → EReal) (Wx Wh : S4x1024x1024.Idx → EReal) (Bx Bh : S4x1024.Idx → EReal)
    (x h c : Rows) (wx wh : Weights) (bx bh : Biases) (b : Fin 4096) (p : Fin 256)
    (hX : ∀ k, X (ix2 p k) = x (ix2 b k)) (hH : ∀ k, H (ix2 p k) = h (ix2 b k)) (hC : ∀ q, C (ix2 p q) = c (ix2 b q))
    (hWx : ∀ g k q, Wx (ix3 g k q) = wx (ix3 g q k)) (hWh : ∀ g k q, Wh (ix3 g k q) = wh (ix3 g q k))
    (hBx : ∀ g q, Bx (ix2 g q) = bx (ix2 g q)) (hBh : ∀ g q, Bh (ix2 g q) = bh (ix2 g q)) (q : Fin 1024) :
    hiddenBlk X H C Wx Wh Bx Bh p q = hiddenAt x h c wx wh bx bh b q := by
  unfold hiddenBlk hiddenAt
  rw [cellBlk_eq X H C Wx Wh Bx Bh x h c wx wh bx bh b p hX hH hC hWx hWh hBx hBh q,
    gateBlk_eq X H Wx Wh Bx Bh x h wx wh bx bh b p hX hH hWx hWh hBx hBh 3 q]

variable (m : (ℓ : Loc nD τ sig) → Buf (Elt Ideal) ℓ) (ρ : Dev nD → PrngReg)

/-! ## The arrays the region finds -/

/-- x in the kernel's operand format is x. -/
theorem V_x (c : Dev nD) : (V m c main_v0 : S4096x1024.Idx → EReal) = (m ((c : Thread nD τ).loc main_arg0)) := by
  dsimp only [V, hostOps0]; after_results; rfl

/-- h in the kernel's operand format is h. -/
theorem V_h (c : Dev nD) : (V m c main_v1 : S4096x1024.Idx → EReal) = (m ((c : Thread nD τ).loc main_arg1)) := by
  dsimp only [V, hostOps0]; after_results; rfl

/-- The region's c is the argument. -/
theorem V_c (c : Dev nD) : (V m c main_arg2 : S4096x1024.Idx → EReal) = (m ((c : Thread nD τ).loc main_arg2)) := V_main_arg2 m c

/-- The first weight operand is Wx with its last two axes swapped. -/
theorem V_wx (c : Dev nD) : (V m c main_v3 : S4x1024x1024.Idx → EReal)
    = transpose S4x1024x1024 [0, 2, 1] ((m ((c : Thread nD τ).loc main_arg3)) : S4x1024x1024.Idx → EReal) Facts₀.transposes_S4x1024x1024_S4x1024x1024_0_2_1 := by
  dsimp only [V, hostOps0]; after_results; rfl

/-- The second weight operand is Wh with its last two axes swapped. -/
theorem V_wh (c : Dev nD) : (V m c main_v5 : S4x1024x1024.Idx → EReal)
    = transpose S4x1024x1024 [0, 2, 1] ((m ((c : Thread nD τ).loc main_arg4)) : S4x1024x1024.Idx → EReal) Facts₀.transposes_S4x1024x1024_S4x1024x1024_0_2_1 := by
  dsimp only [V, hostOps0]; after_results; rfl

/-- An array with its last two axes swapped, at (g, k, q), is the array at (g, q, k). -/
theorem swapped_apply (w : S4x1024x1024.Idx → EReal) (g : Fin 4) (k q : Fin 1024) :
    transpose S4x1024x1024 [0, 2, 1] w Facts₀.transposes_S4x1024x1024_S4x1024x1024_0_2_1 (ix3 g k q) = w (ix3 g q k) :=
  transpose_apply [0, 2, 1] w _ (ix3 g k q) (ix3 g q k) (fun b => by
    match b with | ⟨0, _⟩ => rfl | ⟨1, _⟩ => rfl | ⟨2, _⟩ => rfl)

/-! ## The windows' index maps over the grid -/

/-- The five row windows move one block of 256 rows per grid point. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The weight and bias windows stay at their whole arrays. -/
theorem idx_whole : ∀ t : Fin cfg0.N, win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks at a grid point -/

/-- Row p of point t's block of x is row 256 t + p of x. -/
theorem blk_x (c : Dev nD) (t : Fin cfg0.N) (p : Fin 256) (k : Fin 1024) (b : Fin 4096) (hb : b.val = t.val * 256 + p.val) :
    (iblk m c 0 t : S256x1024.Idx → EReal) (ix2 p k) = ((m ((c : Thread nD τ).loc main_arg0)) : S4096x1024.Idx → EReal) (ix2 b k) := by
  unfold iblk
  rw [View.read_apply]
  refine (congrFun (V_x m c) _).trans (congrArg _ (funext fun a => Fin.ext ?_))
  obtain ⟨e00, e01, e10, e11, e20, e21, -, -, -, -⟩ := idx_rows t
  match a with
  | ⟨0, _⟩ => show win0_0.index t (0 : Fin 2) * 256 + 1 * p.val = b.val; rw [e00, hb]; omega
  | ⟨1, _⟩ => show win0_0.index t (1 : Fin 2) * 1024 + 1 * k.val = k.val; rw [e01]; omega

/-- Row p of point t's block of h is row 256 t + p of h. -/
theorem blk_h (c : Dev nD) (t : Fin cfg0.N) (p : Fin 256) (k : Fin 1024) (b : Fin 4096) (hb : b.val = t.val * 256 + p.val) :
    (iblk m c 1 t : S256x1024.Idx → EReal) (ix2 p k) = ((m ((c : Thread nD τ).loc main_arg1)) : S4096x1024.Idx → EReal) (ix2 b k) := by
  unfold iblk
  rw [View.read_apply]
  refine (congrFun (V_h m c) _).trans (congrArg _ (funext fun a => Fin.ext ?_))
  obtain ⟨e00, e01, e10, e11, e20, e21, -, -, -, -⟩ := idx_rows t
  match a with
  | ⟨0, _⟩ => show win0_1.index t (0 : Fin 2) * 256 + 1 * p.val = b.val; rw [e10, hb]; omega
  | ⟨1, _⟩ => show win0_1.index t (1 : Fin 2) * 1024 + 1 * k.val = k.val; rw [e11]; omega

/-- Row p of point t's block of c is row 256 t + p of c. -/
theorem blk_c (c : Dev nD) (t : Fin cfg0.N) (p : Fin 256) (k : Fin 1024) (b : Fin 4096) (hb : b.val = t.val * 256 + p.val) :
    (iblk m c 2 t : S256x1024.Idx → EReal) (ix2 p k) = ((m ((c : Thread nD τ).loc main_arg2)) : S4096x1024.Idx → EReal) (ix2 b k) := by
  unfold iblk
  rw [View.read_apply]
  refine (congrFun (V_c m c) _).trans (congrArg _ (funext fun a => Fin.ext ?_))
  obtain ⟨e00, e01, e10, e11, e20, e21, -, -, -, -⟩ := idx_rows t
  match a with
  | ⟨0, _⟩ => show win0_2.index t (0 : Fin 2) * 256 + 1 * p.val = b.val; rw [e20, hb]; omega
  | ⟨1, _⟩ => show win0_2.index t (1 : Fin 2) * 1024 + 1 * k.val = k.val; rw [e21]; omega

/-- The first weight block at (g, k, q) is Wx at (g, q, k). -/
theorem blk_wx (c : Dev nD) (t : Fin cfg0.N) (g : Fin 4) (k q : Fin 1024) :
    (iblk m c 3 t : S4x1024x1024.Idx → EReal) (ix3 g k q) = ((m ((c : Thread nD τ).loc main_arg3)) : S4x1024x1024.Idx → EReal) (ix3 g q k) := by
  unfold iblk
  rw [View.read_apply]
  refine ((congrFun (V_wx m c) _).trans (congrArg _ (funext fun a => Fin.ext ?_))).trans (swapped_apply _ g k q)
  obtain ⟨e0, e1, e2, -, -, -, -, -, -, -⟩ := idx_whole t
  match a with
  | ⟨0, _⟩ => show win0_3.index t (0 : Fin 3) * 4 + 1 * g.val = g.val; rw [e0]; omega
  | ⟨1, _⟩ => show win0_3.index t (1 : Fin 3) * 1024 + 1 * k.val = k.val; rw [e1]; omega
  | ⟨2, _⟩ => show win0_3.index t (2 : Fin 3) * 1024 + 1 * q.val = q.val; rw [e2]; omega

/-- The second weight block at (g, k, q) is Wh at (g, q, k). -/
theorem blk_wh (c : Dev nD) (t : Fin cfg0.N) (g : Fin 4) (k q : Fin 1024) :
    (iblk m c 4 t : S4x1024x1024.Idx → EReal) (ix3 g k q) = ((m ((c : Thread nD τ).loc main_arg4)) : S4x1024x1024.Idx → EReal) (ix3 g q k) := by
  unfold iblk
  rw [View.read_apply]
  refine ((congrFun (V_wh m c) _).trans (congrArg _ (funext fun a => Fin.ext ?_))).trans (swapped_apply _ g k q)
  obtain ⟨-, -, -, e0, e1, e2, -, -, -, -⟩ := idx_whole t
  match a with
  | ⟨0, _⟩ => show win0_4.index t (0 : Fin 3) * 4 + 1 * g.val = g.val; rw [e0]; omega
  | ⟨1, _⟩ => show win0_4.index t (1 : Fin 3) * 1024 + 1 * k.val = k.val; rw [e1]; omega
  | ⟨2, _⟩ => show win0_4.index t (2 : Fin 3) * 1024 + 1 * q.val = q.val; rw [e2]; omega

/-- The first bias block is bx. -/
theorem blk_bx (c : Dev nD) (t : Fin cfg0.N) (g : Fin 4) (q : Fin 1024) :
    (iblk m c 5 t : S4x1024.Idx → EReal) (ix2 g q) = ((m ((c : Thread nD τ).loc main_arg5)) : S4x1024.Idx → EReal) (ix2 g q) := by
  unfold iblk
  rw [View.read_apply]
  refine (congrFun (V_main_arg5 m c) _).trans (congrArg _ (funext fun a => Fin.ext ?_))
  obtain ⟨-, -, -, -, -, -, e0, e1, -, -⟩ := idx_whole t
  match a with
  | ⟨0, _⟩ => show win0_5.index t (0 : Fin 2) * 4 + 1 * g.val = g.val; rw [e0]; omega
  | ⟨1, _⟩ => show win0_5.index t (1 : Fin 2) * 1024 + 1 * q.val = q.val; rw [e1]; omega

/-- The second bias block is bh. -/
theorem blk_bh (c : Dev nD) (t : Fin cfg0.N) (g : Fin 4) (q : Fin 1024) :
    (iblk m c 6 t : S4x1024.Idx → EReal) (ix2 g q) = ((m ((c : Thread nD τ).loc main_arg6)) : S4x1024.Idx → EReal) (ix2 g q) := by
  unfold iblk
  rw [View.read_apply]
  refine (congrFun (V_main_arg6 m c) _).trans (congrArg _ (funext fun a => Fin.ext ?_))
  obtain ⟨-, -, -, -, -, -, -, -, e0, e1⟩ := idx_whole t
  match a with
  | ⟨0, _⟩ => show win0_6.index t (0 : Fin 2) * 4 + 1 * g.val = g.val; rw [e0]; omega
  | ⟨1, _⟩ => show win0_6.index t (1 : Fin 2) * 1024 + 1 * q.val = q.val; rw [e1]; omega

end Cert.Lstm.Kernel

end
-- ==== Proof.KernelRun.lean ====
/-
  The kernel's run, read: after every weakly fair execution the first result array holds the new hidden state and the
  second the new cell state of LstmSpec, as functions of the seven arguments, and the arguments are unchanged.

  Each grid point writes back one block of 256 rows of each result, and that block is the specification's array
  read through the block (KernelBlock's formulas at the point's input blocks, KernelArray's reading of those blocks
  as parts of the arguments). Row r of a result lies in the block of point r / 256, so the sixteen blocks cover each
  result array.
-/
import proofs.«117906_j46540265620152_1_alg».proof.Proof.KernelArray

noncomputable section

namespace Cert.Lstm.Kernel

open Cert.KernelIdeal Cert.KernelIdeal.Gen Cert.KernelIdeal.Value Idealize.ShloMosaic Idealize.ShloMosaic.TcCoe
open Idealize.SL.Sem Idealize.ShloMosaic.ValueIdx Cert.Lstm
open Idealize.ShloMosaic.Pipeline (Dat)

variable (m : (ℓ : Loc nD τ sig) → Buf (Elt Ideal) ℓ) (ρ : Dev nD → PrngReg)

/-- What grid point t writes back to result 0 is block t of the specification's array. -/
theorem flushed7_eq (c : Dev nD) (t : Fin cfg0.N) :
    (dats m 0 c).flushed 7 t = ((cfg0.win 7).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext y
  obtain ⟨p, q, rfl⟩ : ∃ (p : Fin 256) (q : Fin 1024), y = ix2 p q := ⟨y 0, y 1, eq_ix2 y⟩
  have ht : t.val < 16 := by have h := t.isLt; have hN : cfg0.N = 16 := N_0; omega
  have hp := p.isLt
  let b : Fin 4096 := ⟨t.val * 256 + p.val, by omega⟩
  have hemb : ((cfg0.win 7).blk t).view.emb (ix2 p q) = (ix2 b q : S4096x1024.Idx) := by
    obtain ⟨-, -, -, -, -, -, e70, e71, e80, e81⟩ := idx_rows t
    refine funext fun a => Fin.ext ?_
    match a with
    | ⟨0, _⟩ => show win0_7.index t (0 : Fin 2) * 256 + 1 * p.val = t.val * 256 + p.val; rw [e70]; omega
    | ⟨1, _⟩ => show win0_7.index t (1 : Fin 2) * 1024 + 1 * q.val = q.val; rw [e71]; omega
  show out0_7 (iblk m c 0 t) (iblk m c 1 t) (iblk m c 2 t) (iblk m c 3 t) (iblk m c 4 t) (iblk m c 5 t) (iblk m c 6 t) (ix2 p q) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  rw [hemb, hiddenArr_apply]
  refine (out7_apply (iblk m c 0 t) (iblk m c 1 t) (iblk m c 2 t) (iblk m c 3 t) (iblk m c 4 t) (iblk m c 5 t) (iblk m c 6 t) p q).trans ?_
  exact hiddenBlk_eq (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b p
      (fun k => blk_x m c t p k b rfl) (fun k => blk_h m c t p k b rfl) (fun q => blk_c m c t p q b rfl)
      (fun g k q => blk_wx m c t g k q) (fun g k q => blk_wh m c t g k q) (fun g q => blk_bx m c t g q) (fun g q => blk_bh m c t g q) q

/-- What grid point t writes back to result 1 is block t of the specification's array. -/
theorem flushed8_eq (c : Dev nD) (t : Fin cfg0.N) :
    (dats m 0 c).flushed 8 t = ((cfg0.win 8).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  funext y
  obtain ⟨p, q, rfl⟩ : ∃ (p : Fin 256) (q : Fin 1024), y = ix2 p q := ⟨y 0, y 1, eq_ix2 y⟩
  have ht : t.val < 16 := by have h := t.isLt; have hN : cfg0.N = 16 := N_0; omega
  have hp := p.isLt
  let b : Fin 4096 := ⟨t.val * 256 + p.val, by omega⟩
  have hemb : ((cfg0.win 8).blk t).view.emb (ix2 p q) = (ix2 b q : S4096x1024.Idx) := by
    obtain ⟨-, -, -, -, -, -, e70, e71, e80, e81⟩ := idx_rows t
    refine funext fun a => Fin.ext ?_
    match a with
    | ⟨0, _⟩ => show win0_8.index t (0 : Fin 2) * 256 + 1 * p.val = t.val * 256 + p.val; rw [e80]; omega
    | ⟨1, _⟩ => show win0_8.index t (1 : Fin 2) * 1024 + 1 * q.val = q.val; rw [e81]; omega
  show out0_8 (iblk m c 0 t) (iblk m c 1 t) (iblk m c 2 t) (iblk m c 3 t) (iblk m c 4 t) (iblk m c 5 t) (iblk m c 6 t) (ix2 p q) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 p q))
  rw [hemb, cellArr_apply]
  refine (out8_apply (iblk m c 0 t) (iblk m c 1 t) (iblk m c 2 t) (iblk m c 3 t) (iblk m c 4 t) (iblk m c 5 t) (iblk m c 6 t) p q).trans ?_
  exact cellBlk_eq (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b p
      (fun k => blk_x m c t p k b rfl) (fun k => blk_h m c t p k b rfl) (fun q => blk_c m c t p q b rfl)
      (fun g k q => blk_wx m c t g k q) (fun g k q => blk_wh m c t g k q) (fun g q => blk_bx m c t g q) (fun g q => blk_bh m c t g q) q

/-- An index of result 0 is in point t's block iff each coordinate is in the block's range. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_0).slice (win0_7.rect t)).set ↔ _
  rw [View.set_slice_whole, Rect.mem_set_unit]
  exact Iff.rfl

/-- Every entry of result 0 lies in the block of the point that owns its row: row r belongs to point r / 256. -/
theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 16 := N_0
  refine ⟨⟨(i 0).val / 256, by rw [hN]; omega⟩, flush0_7 _, ?_⟩
  rw [mem_blk7]
  obtain ⟨-, -, -, -, -, -, e70, e71, e80, e81⟩ := idx_rows ⟨(i 0).val / 256, by rw [hN]; omega⟩
  intro a
  match a with
  | ⟨0, _⟩ =>
    show win0_7.index _ (0 : Fin 2) * 256 ≤ (i 0).val ∧ (i 0).val < win0_7.index _ (0 : Fin 2) * 256 + 256
    rw [e70]; show (i 0).val / 256 * 256 ≤ (i 0).val ∧ (i 0).val < (i 0).val / 256 * 256 + 256; omega
  | ⟨1, _⟩ =>
    show win0_7.index _ (1 : Fin 2) * 1024 ≤ (i 1).val ∧ (i 1).val < win0_7.index _ (1 : Fin 2) * 1024 + 1024
    rw [e71]; omega

/-- An index of result 1 is in point t's block iff each coordinate is in the block's range. -/
theorem mem_blk8 (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v6_1).slice (win0_8.rect t)).set ↔ _
  rw [View.set_slice_whole, Rect.mem_set_unit]
  exact Iff.rfl

/-- Every entry of result 1 lies in the block of the point that owns its row: row r belongs to point r / 256. -/
theorem cover8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have hN : cfg0.N = 16 := N_0
  refine ⟨⟨(i 0).val / 256, by rw [hN]; omega⟩, flush0_8 _, ?_⟩
  rw [mem_blk8]
  obtain ⟨-, -, -, -, -, -, e70, e71, e80, e81⟩ := idx_rows ⟨(i 0).val / 256, by rw [hN]; omega⟩
  intro a
  match a with
  | ⟨0, _⟩ =>
    show win0_8.index _ (0 : Fin 2) * 256 ≤ (i 0).val ∧ (i 0).val < win0_8.index _ (0 : Fin 2) * 256 + 256
    rw [e80]; show (i 0).val / 256 * 256 ≤ (i 0).val ∧ (i 0).val < (i 0).val / 256 * 256 + 256; omega
  | ⟨1, _⟩ =>
    show win0_8.index _ (1 : Fin 2) * 1024 ≤ (i 1).val ∧ (i 1).val < win0_8.index _ (1 : Fin 2) * 1024 + 1024
    rw [e81]; omega

/-- The first result array after the run is the new hidden state. -/
theorem final7 (c : Dev nD) : (dats m 0 c).arrAt 7 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed7_eq m c t) cover7

/-- The second result array after the run is the new cell state. -/
theorem final8 (c : Dev nD) : (dats m 0 c).arrAt 8 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed8_eq m c t) cover8

/-- The run: both results at the specification's arrays of the arguments, the arguments unchanged. -/
theorem run : θ_run defs (onTc (τ := τ) (main (F := Ideal))) ⟨m, fun _ => 0, ρ⟩ fun r => ∀ c : Dev nD,
      r.2.mem ((c : Thread nD τ).loc main_v6_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v6_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.Lstm.Kernel

end
-- ==== Proof.lean ====
/-
  The certificate of one LSTM cell step: a Pallas kernel tiled over 256-row blocks of the batch against a jnp
  reference that contracts all four gates at once.

  Both programs, read on the extended reals, compute for every batch row b and hidden unit j the gate pre-activations
      z g = ((sum over k of x(b,k) * Wx(g,j,k)) + (sum over k of h(b,k) * Wh(g,j,k)) + bx(g,j)) + bh(g,j),
  the cell state  c' = tanh (z 0) * sigma (z 1) + c * sigma (z 2)  and the hidden state  h' = tanh c' * sigma (z 3),
  with the sums grouped alike, so the two sides are equal without any law of the extended reals and the finiteness
  of the inputs is never used. The specification is LstmSpec; RefIsSpec reads the reference's stages at an entry;
  KernelGates, KernelBlock, KernelArray and KernelRun read the kernel's body, its blocks and its run. The frames
  are the generated ones; the idealization rewrote nothing, so there is nothing to preserve.
-/
import proofs.«117906_j46540265620152_1_alg».proof.Defs
import proofs.«117906_j46540265620152_1_alg».proof.Proof.Gen.Kernel
import proofs.«117906_j46540265620152_1_alg».proof.Proof.Gen.Kernel.Skeleton
import proofs.«117906_j46540265620152_1_alg».proof.Proof.Gen.Kernel.Launch
import proofs.«117906_j46540265620152_1_alg».proof.Proof.Gen.Kernel.Points
import proofs.«117906_j46540265620152_1_alg».proof.Proof.Gen.Kernel.Frame
import proofs.«117906_j46540265620152_1_alg».proof.Proof.Gen.KernelIdeal
import proofs.«117906_j46540265620152_1_alg».proof.Proof.Gen.KernelIdeal.Skeleton
import proofs.«117906_j46540265620152_1_alg».proof.Proof.Gen.KernelIdeal.Launch
import proofs.«117906_j46540265620152_1_alg».proof.Proof.Gen.KernelIdeal.Points
import proofs.«117906_j46540265620152_1_alg».proof.Proof.Gen.KernelIdeal.Frame
import proofs.«117906_j46540265620152_1_alg».proof.Proof.Gen.KernelIdeal.Value
import proofs.«117906_j46540265620152_1_alg».proof.Proof.Gen.ReferenceIdeal
import proofs.«117906_j46540265620152_1_alg».proof.Proof.Gen.ReferenceIdeal.Run
import proofs.«117906_j46540265620152_1_alg».proof.Proof.Gen.ReferenceIdeal.Read
import proofs.«117906_j46540265620152_1_alg».proof.Proof.Gen.Pre_finite_inputs
import proofs.«117906_j46540265620152_1_alg».proof.Proof.RefIsSpec
import proofs.«117906_j46540265620152_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of LstmSpec of arguments that agree. -/
theorem algebraic : Cert.algebraic_KernelIdeal_ReferenceIdeal := by
  intro m ρ m' ρ' _ hagree
  refine ⟨fun c => Cert.Lstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Lstm.Kernel.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v40_eq, Cert.Lstm.Ref.hidden_eq, a0, a1, a2, a3, a4, a5, a6]
  · refine (Cert.ReferenceIdeal.Read.val_main_v38_eq _ _ _ _ _ _ _).trans ?_
    rw [Cert.Lstm.Ref.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
